-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S8192x2048 : Shape := ⟨2, ![8192, 2048]⟩
abbrev S8192 : Shape := ⟨1, ![8192]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  main_v18

def fn {F : FTy → Type} [FloatOps F] (main_arg0 : FVec F S4x2048x2048 .f32) (main_arg1 : FVec F S8192x2048 .f32) (main_arg2 : FVec F S8192 .f32) (main_arg3 : FVec F S8192 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_v13 main_v16
-- ==== Kernel.lean ====
abbrev S4x2048x2048 : Shape := ⟨3, ![4, 2048, 2048]⟩
abbrev S8192x2048 : Shape := ⟨2, ![8192, 2048]⟩
abbrev S8192 : Shape := ⟨1, ![8192]⟩
abbrev S_ : Shape := ⟨0, ![]⟩
abbrev S2048x8192 : Shape := ⟨2, ![2048, 8192]⟩
abbrev S1x8192 : Shape := ⟨2, ![1, 8192]⟩
abbrev S8192x8192 : Shape := ⟨2, ![8192, 8192]⟩
abbrev S512x2048 : Shape := ⟨2, ![512, 2048]⟩
abbrev S2048x2048 : Shape := ⟨2, ![2048, 2048]⟩
abbrev S1x2048 : Shape := ⟨2, ![1, 2048]⟩
abbrev S4x2048x8192 : Shape := ⟨3, ![4, 2048, 8192]⟩

abbrev nBuf : Space → Nat
  | .hbm => 34
  | .vmem => 10
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S8192, .f32⟩
  | .hbm, ⟨3, _⟩ => ⟨S8192, .f32⟩
  | .hbm, ⟨4, _⟩ => ⟨S4x2048x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .i1⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x2048x2048, .f32⟩
  | .hbm, ⟨14, _⟩ => ⟨S4x2048x2048, .f32⟩
  | .hbm, ⟨15, _⟩ => ⟨S4x2048x2048, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4x2048x2048, .f32⟩
  | .hbm, ⟨20, _⟩ => ⟨S4x2048x2048, .f32⟩
  | .hbm, ⟨21, _⟩ => ⟨S_, .f32⟩
  | .hbm, ⟨22, _⟩ => ⟨S4x2048x2048, .f32⟩
  | .hbm, ⟨23, _⟩ => ⟨S4x2048x2048, .f32⟩
  | .hbm, ⟨24, _⟩ => ⟨S4x2048x2048, .bf16⟩
  | .hbm, ⟨25, _⟩ => ⟨S8192x2048, .bf16⟩
  | .hbm, ⟨26, _⟩ => ⟨S8192x2048, .bf16⟩
  | .hbm, ⟨27, _⟩ => ⟨S2048x8192, .bf16⟩
  | .hbm, ⟨28, _⟩ => ⟨S8192, .f32⟩
  | .hbm, ⟨29, _⟩ => ⟨S8192, .f32⟩
  | .hbm, ⟨30, _⟩ => ⟨S1x8192, .f32⟩
  | .hbm, ⟨31, _⟩ => ⟨S1x8192, .f32⟩
  | .hbm, ⟨32, _⟩ => ⟨S8192x8192, .f32⟩
  | .hbm, ⟨33, _⟩ => ⟨S4x2048x8192, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_cst_4 : Ref sig .tc := ⟨.hbm, 17, rfl⟩
abbrev main_call2_v0 : Ref sig .tc := ⟨.hbm, 18, rfl⟩
abbrev main_call2_v1 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S4x2048x2048_S_d0_1_2 : S4x2048x2048.ReducesTo [0, 1, 2] S_
  h_S_ : 0 < S_.numel
  bcast_S_S4x2048x2048 : S_.BroadcastsInDim S4x2048x2048 (![] : Fin 0 → Fin S4x2048x2048.rank)
  bitsLt_bf16_f32 : FTy.bits .bf16 < FTy.bits .f32
  shapeCasts_S4x2048x2048_S8192x2048 : S4x2048x2048.ShapeCasts S8192x2048
  transposes_S8192x2048_S2048x8192_1_0 : S8192x2048.Transposes [1, 0] S2048x8192
  bcast_S_S8192 : S_.BroadcastsInDim S8192 (![] : Fin 0 → Fin S8192.rank)
  shapeCasts_S8192_S1x8192 : S8192.ShapeCasts S1x8192
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S8192x8192_S4x2048x8192 : S8192x8192.ShapeCasts S4x2048x8192
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .bf16 = 32 ∨ (Rect.block (s := S8192x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x8192.size a
  hwx0_1 : ∀ i : grid0.Coords, EltTy.bits .bf16 = 32 ∨ (Rect.block (s := S2048x8192) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x8192.size a
  hwx0_2 : ∀ i : grid0.Coords, EltTy.bits .f32 = 32 ∨ (Rect.block (s := S1x8192) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .f32 = 32 ∨ (Rect.block (s := S1x8192) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S8192x8192.size a
  hwx0_4 : ∀ i : grid0.Coords, EltTy.bits .f32 = 32 ∨ (Rect.block (s := S8192x8192) S512x2048.size (cc0_transform_4 i) (hinb0_4 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v10) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S8192x2048 : Shape := ⟨2, ![8192, 2048]⟩
abbrev S8192 : Shape := ⟨1, ![8192]⟩
abbrev S_ : Shape := ⟨0, ![]⟩
abbrev S4x2048x8192 : Shape := ⟨3, ![4, 2048, 8192]⟩
abbrev S1x1x8192 : Shape := ⟨3, ![1, 1, 8192]⟩

abbrev nBuf : Space → Nat
  | .hbm => 33
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S8192, .f32⟩
  | .hbm, ⟨3, _⟩ => ⟨S8192, .f32⟩
  | .hbm, ⟨4, _⟩ => ⟨S4x2048x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .i1⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x2048x2048, .f32⟩
  | .hbm, ⟨14, _⟩ => ⟨S4x2048x2048, .f32⟩
  | .hbm, ⟨15, _⟩ => ⟨S4x2048x2048, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4x2048x2048, .f32⟩
  | .hbm, ⟨20, _⟩ => ⟨S4x2048x2048, .f32⟩
  | .hbm, ⟨21, _⟩ => ⟨S_, .f32⟩
  | .hbm, ⟨22, _⟩ => ⟨S4x2048x2048, .f32⟩
  | .hbm, ⟨23, _⟩ => ⟨S4x2048x2048, .f32⟩
  | .hbm, ⟨24, _⟩ => ⟨S4x2048x8192, .f32⟩
  | .hbm, ⟨25, _⟩ => ⟨S8192, .f32⟩
  | .hbm, ⟨26, _⟩ => ⟨S8192, .f32⟩
  | .hbm, ⟨27, _⟩ => ⟨S1x1x8192, .f32⟩
  | .hbm, ⟨28, _⟩ => ⟨S4x2048x8192, .f32⟩
  | .hbm, ⟨29, _⟩ => ⟨S4x2048x8192, .f32⟩
  | .hbm, ⟨30, _⟩ => ⟨S1x1x8192, .f32⟩
  | .hbm, ⟨31, _⟩ => ⟨S4x2048x8192, .f32⟩
  | .hbm, ⟨32, _⟩ => ⟨S4x2048x8192, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_cst_4 : Ref sig .tc := ⟨.hbm, 17, rfl⟩
abbrev main_call2_v0 : Ref sig .tc := ⟨.hbm, 18, rfl⟩
abbrev main_call2_v1 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩

abbrev nD : Nat := 1
abbrev τ : Topo := Topo.v7x

variable {F : FTy → Type} [FloatOps F]

class Facts₀ : Prop where
  reducesTo_S4x2048x2048_S_d0_1_2 : S4x2048x2048.ReducesTo [0, 1, 2] S_
  h_S_ : 0 < S_.numel
  bcast_S_S4x2048x2048 : S_.BroadcastsInDim S4x2048x2048 (![] : Fin 0 → Fin S4x2048x2048.rank)
  bcast_S_S8192 : S_.BroadcastsInDim S8192 (![] : Fin 0 → Fin S8192.rank)
  bcast_S8192_S1x1x8192_2 : S8192.BroadcastsInDim S1x1x8192 (![2] : Fin 1 → Fin S1x1x8192.rank)
  bcast_S1x1x8192_S4x2048x8192_0_1_2 : S1x1x8192.BroadcastsInDim S4x2048x8192 (![0, 1, 2] : Fin 3 → Fin S4x2048x8192.rank)
  dot_S4x2048x2048_S8192x2048_S4x2048x8192_2_1_01_0_n_n_wf : DotDims.WF S4x2048x2048 S8192x2048 S4x2048x8192 [2] [1] [0, 1] [0] [] []

variable [Facts₀]

def dot_S4x2048x2048_S8192x2048_S4x2048x8192_2_1_01_0_n_n : DotDims S4x2048x2048 S8192x2048 S4x2048x8192 where
  lhsContracting := [2]
  rhsContracting := [1]
  lhsNonContracting := [0, 1]
  rhsNonContracting := [0]
  lhsBatch := []
  rhsBatch := []
  wf := dot_S4x2048x2048_S8192x2048_S4x2048x8192_2_1_01_0_n_n_wf

class Facts : Prop extends Facts₀ where

variable [Facts]
-- ==== Proof.BlockIdx.lean ====
/-
  The 16 × 4 grid of blocks: which entry of which array each entry of a block is.

  Point (i, j) of the grid reads rows 512·i … 512·i + 511 of the flattened activations (all 2048 columns), columns
  2048·j … 2048·j + 2047 of the transposed weights (all 2048 rows), the same columns of the scale row and of the bias
  row, and writes the [512, 2048] block at block index (i, j) of the [8192, 8192] output. An entry of a block sits in
  its array at block index × block size + the entry's coordinate inside the block, axis by axis; and every entry (r, o)
  of the output lies in the block at block index (r / 512, o / 2048), so the 64 blocks cover it.
-/
import proofs.«181942_j77859167142257_1_alg».proof.Proof.Gen.KernelIdeal.Frame
import Idealize.ShloMosaic.Lib.Pipeline.Value
import Idealize.ShloMosaic.Lib.ValueIdx
import Idealize.ShloMosaic.PureOps.Ideal

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- The four arrays the region reads, as it finds them, at their literal types: the flattened activations, the
    transposed weights, the combined scale row and the bias row (windows 0 to 3 of the region). -/
abbrev actRows (c : Dev nD) : FVec Ideal S8192x2048 .bf16 := V m c (Pipeline.arrRef spec0 (0 : Fin cfg0.W))
abbrev wCols (c : Dev nD) : FVec Ideal S2048x8192 .bf16 := V m c (Pipeline.arrRef spec0 (1 : Fin cfg0.W))
abbrev scaleRow (c : Dev nD) : FVec Ideal S1x8192 .f32 := V m c (Pipeline.arrRef spec0 (2 : Fin cfg0.W))
abbrev biasRow (c : Dev nD) : FVec Ideal S1x8192 .f32 := V m c (Pipeline.arrRef spec0 (3 : Fin cfg0.W))

/-- The block indices, decided over the 64 points: the activations follow the output's row block, the weights, the
    scale row and the bias row follow its column block, every other block index is 0, and the output's block index at
    point `t` is (t / 4, t % 4): the grid runs row block by row block, four column blocks to a row block. -/
theorem block_indices : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = win0_4.index t (1 : Fin 2)
    ∧ win0_2.index t (0 : Fin 2) = 0 ∧ win0_2.index t (1 : Fin 2) = win0_4.index t (1 : Fin 2)
    ∧ win0_3.index t (0 : Fin 2) = 0 ∧ win0_3.index t (1 : Fin 2) = win0_4.index t (1 : Fin 2)
    ∧ win0_4.index t (0 : Fin 2) = t.val / 4 ∧ win0_4.index t (1 : Fin 2) = t.val % 4 :=
  (by decide +kernel : ∀ t : Fin grid0.N, _)

/-- A point is one of 64. -/
theorem point_lt (t : Fin cfg0.N) : t.val < 64 := lt_of_lt_of_eq t.isLt N_0

/-- Window 0's block at point `t`, read off ANY [8192, 2048] array: entry (p, k) is the array's entry (512·i + p, k). -/
theorem act_read (A : FVec Ideal S8192x2048 .bf16) (t : Fin cfg0.N) (p : Fin 512) (k : Fin 2048) (r : Fin 8192)
    (hr : r.val = win0_4.index t (0 : Fin 2) * 512 + p.val) :
    ((cfg0.win 0).blk t).view.read (Elt Ideal) A (ix2 p k) = A (ix2 r k) := by
  obtain ⟨e0, e1, -⟩ := block_indices t
  have hidx : ((cfg0.win 0).blk t).view.emb (ix2 p k) = ix2 r k := by
    funext a; apply Fin.ext
    match a with
    | ⟨0, _⟩ => show win0_0.index t (0 : Fin 2) * 512 + 1 * p.val = r.val; omega
    | ⟨1, _⟩ => show win0_0.index t (1 : Fin 2) * 2048 + 1 * k.val = k.val; omega
  show A (((cfg0.win 0).blk t).view.emb (ix2 p k)) = A (ix2 r k)
  rw [hidx]

/-- Window 1's block at point `t`, read off any [2048, 8192] array: entry (k, q) is the array's entry (k, 2048·j + q). -/
theorem w_read (A : FVec Ideal S2048x8192 .bf16) (t : Fin cfg0.N) (k : Fin 2048) (q : Fin 2048) (o : Fin 8192)
    (ho : o.val = win0_4.index t (1 : Fin 2) * 2048 + q.val) :
    ((cfg0.win 1).blk t).view.read (Elt Ideal) A (ix2 k q) = A (ix2 k o) := by
  obtain ⟨-, -, e2, e3, -⟩ := block_indices t
  have hidx : ((cfg0.win 1).blk t).view.emb (ix2 k q) = ix2 k o := by
    funext a; apply Fin.ext
    match a with
    | ⟨0, _⟩ => show win0_1.index t (0 : Fin 2) * 2048 + 1 * k.val = k.val; omega
    | ⟨1, _⟩ => show win0_1.index t (1 : Fin 2) * 2048 + 1 * q.val = o.val; omega
  show A (((cfg0.win 1).blk t).view.emb (ix2 k q)) = A (ix2 k o)
  rw [hidx]

/-- Window 2's block at point `t`, read off any [1, 8192] array: entry (0, q) is the array's entry (0, 2048·j + q). -/
theorem scale_read (A : FVec Ideal S1x8192 .f32) (t : Fin cfg0.N) (q : Fin 2048) (o : Fin 8192)
    (ho : o.val = win0_4.index t (1 : Fin 2) * 2048 + q.val) :
    ((cfg0.win 2).blk t).view.read (Elt Ideal) A (ix2 (0 : Fin 1) q) = A (ix2 (0 : Fin 1) o) := by
  obtain ⟨-, -, -, -, e4, e5, -⟩ := block_indices t
  have hidx : ((cfg0.win 2).blk t).view.emb (ix2 (0 : Fin 1) q) = ix2 (0 : Fin 1) o := by
    funext a; apply Fin.ext
    match a with
    | ⟨0, _⟩ => show win0_2.index t (0 : Fin 2) * 1 + 1 * 0 = 0; omega
    | ⟨1, _⟩ => show win0_2.index t (1 : Fin 2) * 2048 + 1 * q.val = o.val; omega
  show A (((cfg0.win 2).blk t).view.emb (ix2 (0 : Fin 1) q)) = A (ix2 (0 : Fin 1) o)
  rw [hidx]

/-- Window 3's block at point `t`, read off any [1, 8192] array: entry (0, q) is the array's entry (0, 2048·j + q). -/
theorem bias_read (A : FVec Ideal S1x8192 .f32) (t : Fin cfg0.N) (q : Fin 2048) (o : Fin 8192)
    (ho : o.val = win0_4.index t (1 : Fin 2) * 2048 + q.val) :
    ((cfg0.win 3).blk t).view.read (Elt Ideal) A (ix2 (0 : Fin 1) q) = A (ix2 (0 : Fin 1) o) := by
  obtain ⟨-, -, -, -, -, -, e6, e7, -⟩ := block_indices t
  have hidx : ((cfg0.win 3).blk t).view.emb (ix2 (0 : Fin 1) q) = ix2 (0 : Fin 1) o := by
    funext a; apply Fin.ext
    match a with
    | ⟨0, _⟩ => show win0_3.index t (0 : Fin 2) * 1 + 1 * 0 = 0; omega
    | ⟨1, _⟩ => show win0_3.index t (1 : Fin 2) * 2048 + 1 * q.val = o.val; omega
  show A (((cfg0.win 3).blk t).view.emb (ix2 (0 : Fin 1) q)) = A (ix2 (0 : Fin 1) o)
  rw [hidx]

/-- An index of the flat output is in point `t`'s block iff each coordinate is in the block's range on its axis. -/
theorem mem_block (t : Fin cfg0.N) (i : S8192x8192.Idx) :
    i ∈ ((cfg0.win 4).blk t).view.set ↔ ∀ a : Fin 2, win0_4.index t a * S512x2048.size a ≤ (i a).val
      ∧ (i a).val < win0_4.index t a * S512x2048.size a + S512x2048.size a := by
  show i ∈ ((View.whole main_v17).slice (win0_4.rect t)).set ↔ _
  rw [View.set_slice_whole, Rect.mem_set_unit]
  exact Iff.rfl

/-- The 16 × 4 blocks cover the flat output: entry (r, o) is in the block of point (r / 512) · 4 + o / 2048, whose
    block index is (r / 512, o / 2048). -/
theorem covered (i : S8192x8192.Idx) :
    ∃ t : Fin cfg0.N, (cfg0.win 4).flush t = true ∧ i ∈ ((cfg0.win 4).blk t).view.set := by
  have hi0 : (i 0).val < 8192 := (i 0).isLt
  have hi1 : (i 1).val < 8192 := (i 1).isLt
  have hlt : (i 0).val / 512 * 4 + (i 1).val / 2048 < cfg0.N := lt_of_lt_of_eq (by omega) N_0.symm
  obtain ⟨-, -, -, -, -, -, -, -, b0, b1⟩ := block_indices ⟨(i 0).val / 512 * 4 + (i 1).val / 2048, hlt⟩
  have q0 : win0_4.index ⟨(i 0).val / 512 * 4 + (i 1).val / 2048, hlt⟩ (0 : Fin 2) = (i 0).val / 512 := by
    rw [b0]; show ((i 0).val / 512 * 4 + (i 1).val / 2048) / 4 = (i 0).val / 512; omega
  have q1 : win0_4.index ⟨(i 0).val / 512 * 4 + (i 1).val / 2048, hlt⟩ (1 : Fin 2) = (i 1).val / 2048 := by
    rw [b1]; show ((i 0).val / 512 * 4 + (i 1).val / 2048) % 4 = (i 1).val / 2048; omega
  refine ⟨⟨(i 0).val / 512 * 4 + (i 1).val / 2048, hlt⟩, flush0_4 _, ?_⟩
  rw [mem_block]
  intro a
  match a with
  | ⟨0, _⟩ =>
    show win0_4.index ⟨(i 0).val / 512 * 4 + (i 1).val / 2048, hlt⟩ (0 : Fin 2) * 512 ≤ (i 0).val
      ∧ (i 0).val < win0_4.index ⟨(i 0).val / 512 * 4 + (i 1).val / 2048, hlt⟩ (0 : Fin 2) * 512 + 512
    rw [q0]; omega
  | ⟨1, _⟩ =>
    show win0_4.index ⟨(i 0).val / 512 * 4 + (i 1).val / 2048, hlt⟩ (1 : Fin 2) * 2048 ≤ (i 1).val
      ∧ (i 1).val < win0_4.index ⟨(i 0).val / 512 * 4 + (i 1).val / 2048, hlt⟩ (1 : Fin 2) * 2048 + 2048
    rw [q1]; omega

end Cert.KernelIdeal.Blocks

end
-- ==== Proof.LibDense.lean ====
/-
  One dense layer of a multilayer perceptron, read one row at a time over the extended reals.

  A layer maps a row  v  of K numbers to the row  y_c = (Σ_k v_k · W_{k,c}) + b_c  of C numbers (`affine`), optionally
  followed by the rectifier  max(·, 0)  (`relu`). A product of an [R, K] array with a [K, C] array whose dimension
  numbers contract the left operand's axis 1 with the right operand's axis 0 (no batch axes) is, at the entry (r, c),
  the sum over k of  lhs(r, k) · rhs(k, c) : this holds for the matrix unit's product into a zero accumulator and for the
  host's general product alike (`matmul_zero_plain_apply`, `dotGeneral_plain_apply`), because both are the same sum over
  the one-axis contraction index, re-indexed here by its one coordinate (`contr_sum`). So a whole layer as either
  program spells it — the product, the bias row added to every row, the maximum with zero — is `relu (affine W b row)`
  at every entry (`kernel_affine_apply` then `kernel_relu_apply`; `host_affine_apply` then `host_relu_apply`), whatever the number of rows: a layer acts on each row by
  itself.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- The affine map of one row:  y_c = (Σ_k v_k · W_{k,c}) + b_c . -/
def affine {K C : ℕ} (W : FVec Ideal ⟨2, ![K, C]⟩ .f32) (b : FVec Ideal ⟨1, ![C]⟩ .f32) (v : Fin K → EReal) :
    Fin C → EReal :=
  fun c => (∑ k : Fin K, v k * W (ix2 k c)) + b (ix1 c)

/-- The rectifier on a row:  max(y_c, 0) . -/
def relu {C : ℕ} (v : Fin C → EReal) : Fin C → EReal := fun c => max (v c) 0

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- With no batch axes and the left operand's axis 0 its only free axis, the left index's row is the result's row. -/
private theorem lhsIdx_row {R K C : ℕ} (d : DotDims ⟨2, ![R, K]⟩ ⟨2, ![K, C]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- With no batch axes, one free axis on the left and the right operand's axis 1 its only free axis, the right index's
    column is the result's column. -/
private theorem rhsIdx_col {R K C : ℕ} (d : DotDims ⟨2, ![R, K]⟩ ⟨2, ![K, C]⟩ ⟨2, ![R, C]⟩)
    (h3 : d.lhsNonContracting = [0]) (h4 : d.rhsNonContracting = [1]) (h5 : d.lhsBatch = []) (h6 : d.rhsBatch = [])
    (j : (⟨2, ![R, C]⟩ : Shape).Idx) (k : d.contr.Idx) : (d.rhsIdx j k 1).val = (j 1).val := by
  have hb : (1 : Fin 2) ∉ d.rhsBatch := by rw [h6]; exact List.not_mem_nil
  have hn : (1 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over a one-axis contraction index of a plain [R,K] × [K,C] product, as the sum over k of
    lhs(r, k) · rhs(k, c). -/
theorem contr_sum {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (lhs : (⟨2, ![R, K]⟩ : Shape).Idx → EReal) (rhs : (⟨2, ![K, C]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 k c) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k): its row from the result, its column from the contraction
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  -- the right operand is read at (k, c): its row from the contraction, its column from the result
  have er : d.rhsIdx (ix2 r c) ((contrEquiv1 d K hr hs).symm k) = ix2 k c := by
    funext a
    match a with
    | ⟨0, _⟩ => exact Fin.ext ((d.rhsIdx_val_of_single h2 (ix2 r c) _).trans hk)
    | ⟨1, _⟩ => exact Fin.ext (rhsIdx_col d h3 h4 h5 h6 (ix2 r c) _)
  rw [el, er]

/-- The matrix unit's product into a zero accumulator, at (r, c). -/
theorem matmul_zero_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    matmul d prec lhs rhs (constant ⟨2, ![R, C]⟩ .f32 0x00000000#32) (ix2 r c)
      = ∑ k : Fin K, lhs (ix2 r k) * rhs (ix2 k c) := by
  -- the product into zeros is the sum over the contraction index, which is the sum over k
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    Host.dotGeneral d prec lhs rhs (ix2 r c) = ∑ k : Fin K, lhs (ix2 r k) * rhs (ix2 k c) := by
  -- the general product is the same sum over the contraction index
  simp only [Host.dotGeneral]
  rw [Ideal.dotGeneral_apply]
  exact contr_sum d h1 h2 h3 h4 h5 h6 lhs rhs r c

/-- A [C] row viewed as a [1, C] array and stretched over R rows reads, at (r, c), the row's entry c. -/
private theorem bias_keepdims_apply {R C : ℕ} {α : Type}
    (hsc : (⟨1, ![C]⟩ : Shape).ShapeCasts ⟨2, ![1, C]⟩) (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) := by
  -- the stretch reads the [1, C] array at (0, c); when C = 1 the column c is itself 0
  refine (broadcastTo_apply _ hbc (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the added unit axis reads the row at its trailing coordinate
  · refine (shapeCast_addUnit_apply ![C] b hsc (ix2 (0 : Fin 1) c)).trans ?_
    exact congrArg b (funext fun a => match a with | ⟨0, _⟩ => rfl)

/-- A layer before its rectifier as the kernel spells it — both operands narrowed to bf16 (the identity on the
    extended reals), the product into zeros, the bias as a [1, C] row stretched over the R rows and added — at (r, c). -/
theorem kernel_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨1, ![C]⟩ .f32)
    (r : Fin R) (c : Fin C) :
    addf (matmul d none (truncf .bf16 X hlt) (truncf .bf16 W hlt) (constant ⟨2, ![R, C]⟩ .f32 0x00000000#32))
        (broadcastTo ⟨2, ![R, C]⟩ (shapeCast ⟨2, ![1, C]⟩ b hsc) hbc) (ix2 r c)
      = affine W b (fun k => X (ix2 r k)) c := by
  -- the sum at (r, c) plus the bias entry c; narrowing to bf16 is the identity on the extended reals
  rw [addf_apply, matmul_zero_plain_apply d h1 h2 h3 h4 h5 h6, bias_keepdims_apply hsc hbc b r c]
  rfl

/-- The kernel's rectifier — the maximum with a splat of the zero word — at an index. -/
theorem kernel_relu_apply {s : Shape} (v : FVec Ideal s .f32) (i : s.Idx) :
    maximumf v (broadcast s (Scalar.ofBits (F := Ideal) .f32 0x00000000#32)) i = max (v i) 0 := by
  -- the splat reads the zero word everywhere, and the zero word is the number 0
  rw [maximumf_apply, broadcast_apply]
  show max (v i) (Ideal.ofBits .f32 0x00000000#32) = _
  rw [Ideal.ofBits_zero_f32]

/-- A [C] row laid out as a [1, C] array on its axis 1 and then over R rows on both axes reads, at (r, c), the row's
    entry c. -/
private theorem bias_inDim_apply {R C : ℕ} {α : Type}
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) := by
  -- the outer layout reads the [1, C] array at (0, c); when C = 1 the column c is itself 0
  refine (broadcastInDim_apply ![0, 1] hb2 _ (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the inner layout reads the row at the [1, C] array's coordinate on axis 1
  · refine broadcastInDim_apply ![1] hb1 b (ix2 (0 : Fin 1) c) (ix1 c) fun a => ?_
    match a with
    | ⟨0, _⟩ =>
      show c.val = if C = 1 then 0 else c.val
      split
      · have := c.isLt; omega
      · rfl

/-- A layer before its rectifier as the host spells it — the general product, the bias laid out as a [1, C] row and
    then over the R rows, added — at (r, c). -/
theorem host_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (X : FVec Ideal ⟨2, ![R, K]⟩ .f32) (W : FVec Ideal ⟨2, ![K, C]⟩ .f32) (b : FVec Ideal ⟨1, ![C]⟩ .f32)
    (r : Fin R) (c : Fin C) :
    addf (Host.dotGeneral d none X W)
        (broadcastInDim ⟨2, ![R, C]⟩ ![0, 1] hb2 (broadcastInDim ⟨2, ![1, C]⟩ ![1] hb1 b)) (ix2 r c)
      = affine W b (fun k => X (ix2 r k)) c := by
  -- the sum at (r, c) plus the bias entry c
  rw [addf_apply, dotGeneral_plain_apply d h1 h2 h3 h4 h5 h6, bias_inDim_apply hb1 hb2 b r c]
  rfl

/-- The host's rectifier — the maximum with the zero scalar laid out over the array — at an index. -/
theorem host_relu_apply {s : Shape} (hb0 : (⟨0, ![]⟩ : Shape).BroadcastsInDim s (![] : Fin 0 → Fin s.rank))
    (v : FVec Ideal s .f32) (i : s.Idx) :
    maximumf v (broadcastInDim s ![] hb0 (constant (F := Ideal) ⟨0, ![]⟩ .f32 0x00000000#32)) i = max (v i) 0 := by
  -- the scalar laid out over the array reads its one entry everywhere: the zero word, which is the number 0
  rw [maximumf_apply]
  have e : broadcastInDim s ![] hb0 (constant (F := Ideal) ⟨0, ![]⟩ .f32 0x00000000#32) i
      = constant (F := Ideal) ⟨0, ![]⟩ .f32 0x00000000#32 ix0 :=
    broadcastInDim_apply ![] hb0 _ i ix0 fun a => a.elim0
  rw [e, constant_apply, Ideal.ofBits_zero_f32]

end Cert.Dense

end
-- ==== Proof.Payload.lean ====
/-
  What the kernel body stores, read at one entry of its [512, 2048] output block.

  The body multiplies its [512, 2048] block of activations by its [2048, 2048] block of transposed weights into a zero
  accumulator, multiplies the product by the [1, 2048] row of combined scales stretched over the 512 rows, and adds the
  [1, 2048] row of biases stretched the same way. At the entry (p, q) of the block that is

      ( Σ_k x0(p, k) · x1(k, q) ) · x2(0, q) + x3(0, q) .
-/
import proofs.«181942_j77859167142257_1_alg».proof.Proof.Gen.KernelIdeal.Skeleton
import proofs.«181942_j77859167142257_1_alg».proof.Proof.LibDense
import Idealize.ShloMosaic.Lib.Pipeline.Value
import Idealize.ShloMosaic.Lib.ValueIdx

noncomputable section

open scoped BigOperators

namespace Cert.KernelIdeal.Payload

open Cert.KernelIdeal Cert.KernelIdeal.Gen Idealize.ShloMosaic Idealize.ShloMosaic.ValueIdx

/-- A [1, 2048] row stretched over 512 rows reads, at (p, q), the row's entry q. -/
theorem row_stretch_apply (v : FVec Ideal S1x2048 .f32) (h : S1x2048.Broadcasts S512x2048) (p : Fin 512) (q : Fin 2048) :
    broadcastTo S512x2048 v h (ix2 p q) = v (ix2 (0 : Fin 1) q) := by
  refine broadcastTo_apply v h (ix2 p q) (ix2 (0 : Fin 1) q) fun a => ?_
  match a with
  | ⟨0, _⟩ => exact (if_pos rfl).symm
  | ⟨1, _⟩ =>
    show q.val = if (2048 : Nat) = 1 then 0 else q.val
    rw [if_neg (by decide)]

/-- The stored value at the entry (p, q) of the block. -/
theorem pay_apply (x0 : FVec Ideal S512x2048 .bf16) (x1 : FVec Ideal S2048x2048 .bf16) (x2 x3 : FVec Ideal S1x2048 .f32)
    (p : Fin 512) (q : Fin 2048) :
    k0_pay1 (F := Ideal) x0 x1 x2 x3 (ix2 p q)
      = (∑ k : Fin 2048, x0 (ix2 p k) * x1 (ix2 k q)) * x2 (ix2 (0 : Fin 1) q) + x3 (ix2 (0 : Fin 1) q) := by
  unfold k0_pay1
  -- the sum, the product with the stretched scale row and the sum with the stretched bias row act entry by entry
  show (matmul dot_S512x2048_S2048x2048_S512x2048_1_0_0_1_n_n none (shapeCast S512x2048 x0 _) (shapeCast S2048x2048 x1 _)
          (constant S512x2048 .f32 0x00000000#32) (ix2 p q))
        * (broadcastTo S512x2048 (shapeCast S1x2048 x2 _) _ (ix2 p q))
        + (broadcastTo S512x2048 (shapeCast S1x2048 x3 _) _ (ix2 p q)) = _
  rw [row_stretch_apply, row_stretch_apply]
  -- a cast to the same shape changes nothing
  rw [shapeCast_self x0, shapeCast_self x1, shapeCast_self x2, shapeCast_self x3]
  -- the product into zeros at (p, q) is the sum over the contracted axis
  exact congrArg (fun z => z * x2 (ix2 (0 : Fin 1) q) + x3 (ix2 (0 : Fin 1) q))
    (Cert.Dense.matmul_zero_plain_apply (R := 512) (K := 2048) (C := 2048)
      dot_S512x2048_S2048x2048_S512x2048_1_0_0_1_n_n rfl rfl rfl rfl rfl rfl none x0 x1 p q)

end Cert.KernelIdeal.Payload

end
-- ==== Proof.Spec.lean ====
/-
  The dequantised linear layer, entry by entry, over the extended reals.

  With  q  the quantised activations (integers in [-127, 127] as extended reals),  W  the integer weights,  sx  the
  activation scale,  ws  the per-channel weight scales and  b  the bias, the layer's output at batch  n , position  s  and
  channel  o  is

      ( Σ_k  q(n, s, k) · W(o, k) ) · ( sx · ws(o) )  +  b(o) .

  `layer` is that function on the [4, 2048, 8192] result. `tile` is the same number laid out the way the matrix unit sees
  it: the activations flattened to 8192 rows, the weights transposed to [2048, 8192], the combined scale and the bias as
  [1, 8192] rows; its entry (r, o) is  ( Σ_k A(r, k) · B(k, o) ) · cs(0, o) + bs(0, o) . Row  r = n · 2048 + s  of the flat
  array is position (n, s), which is all that relates the two.
-/
import Idealize.ShloMosaic.PureOps.Ideal.Laws
import Idealize.ShloMosaic.Lib.ValueIdx

noncomputable section

open scoped BigOperators

namespace Cert.QuantLinear

open Idealize.ShloMosaic Idealize.ShloMosaic.ValueIdx

/-! ## The dynamic quantisation of the activations

  Both programs first quantise the activations the same way:  a = max |x|  over the whole array (from -∞),
  sx = 1 if a = 0 and a / 127 otherwise (`scaleOf a`), and  q = min(127, max(-127, round(x / sx)))  with ties to even
  (`quantiseWith`). The layer only
  ever needs `sx` and `q` as given numbers, so they are kept as two opaque functions of `x`; the two facts about shapes
  they take (the three axes reduce to a scalar; a scalar lays out over the array) are arguments, so that either program
  can supply its own witnesses. -/

/-- The activations' shape and the scalar shape. -/
abbrev XS : Shape := ⟨3, ![4, 2048, 2048]⟩
abbrev S0 : Shape := ⟨0, ![]⟩

/-- The largest magnitude of the activations, starting from -∞. -/
def absMax (hr : XS.ReducesTo [0, 1, 2] S0) (h0 : 0 < S0.numel) (x : FVec Ideal XS .f32) : FVec Ideal S0 .f32 :=
  Host.reduce FloatOps.maximumf (Host.absf (F := Ideal) x) (constant (F := Ideal) S0 .f32 0xFF800000#32) hr h0

/-- The scale for a given largest magnitude `a`: 1 when `a` is zero, else `a` over 127. -/
def scaleOf (a : FVec Ideal S0 .f32) : FVec Ideal S0 .f32 :=
  select (cmpf (F := Ideal) .oeq a (constant (F := Ideal) S0 .f32 0x00000000#32))
    (constant (F := Ideal) S0 .f32 0x3F800000#32)
    (Host.divf (F := Ideal) a (constant (F := Ideal) S0 .f32 0x42FE0000#32))

/-- The activation scale of `x`. -/
def scale (hr : XS.ReducesTo [0, 1, 2] S0) (h0 : 0 < S0.numel) (x : FVec Ideal XS .f32) : FVec Ideal S0 .f32 :=
  scaleOf (absMax hr h0 x)

/-- The activations quantised at a given scale `s`: x / s rounded to the nearest integer (ties to even) and clipped
    to [-127, 127]. -/
def quantiseWith (hb : S0.BroadcastsInDim XS (![] : Fin 0 → Fin XS.rank)) (x : FVec Ideal XS .f32)
    (s : FVec Ideal S0 .f32) : FVec Ideal XS .f32 :=
  minimumf (F := Ideal) (broadcastInDim XS ![] hb (id (constant (F := Ideal) S0 .f32 0x42FE0000#32)))
    (maximumf (F := Ideal) (broadcastInDim XS ![] hb (id (constant (F := Ideal) S0 .f32 0xC2FE0000#32)))
      (Host.roundeven (F := Ideal) (Host.divf (F := Ideal) x (broadcastInDim XS ![] hb s))))

/-- The quantised activations of `x`: quantised at their own scale. -/
def quantise (hr : XS.ReducesTo [0, 1, 2] S0) (h0 : 0 < S0.numel)
    (hb : S0.BroadcastsInDim XS (![] : Fin 0 → Fin XS.rank)) (x : FVec Ideal XS .f32) : FVec Ideal XS .f32 :=
  quantiseWith hb x (scale hr h0 x)

/-! ## The layer -/

/-- One entry of the flat product: row `r` of the activations against column `o` of the transposed weights, scaled by the
    combined scale of channel `o` and shifted by its bias. -/
def tileAt (A : FVec Ideal ⟨2, ![8192, 2048]⟩ .bf16) (B : FVec Ideal ⟨2, ![2048, 8192]⟩ .bf16)
    (cs bs : FVec Ideal ⟨2, ![1, 8192]⟩ .f32) (r : Fin 8192) (o : Fin 8192) : EReal :=
  (∑ k : Fin 2048, A (ix2 r k) * B (ix2 k o)) * cs (ix2 (0 : Fin 1) o) + bs (ix2 (0 : Fin 1) o)

/-- The flat [8192, 8192] output the matrix unit produces, as one function of the four arrays it reads. -/
def tile (A : FVec Ideal ⟨2, ![8192, 2048]⟩ .bf16) (B : FVec Ideal ⟨2, ![2048, 8192]⟩ .bf16)
    (cs bs : FVec Ideal ⟨2, ![1, 8192]⟩ .f32) : FVec Ideal ⟨2, ![8192, 8192]⟩ .f32 :=
  fun j => tileAt A B cs bs ⟨(j 0).val, (j 0).isLt⟩ ⟨(j 1).val, (j 1).isLt⟩

theorem tile_apply (A : FVec Ideal ⟨2, ![8192, 2048]⟩ .bf16) (B : FVec Ideal ⟨2, ![2048, 8192]⟩ .bf16)
    (cs bs : FVec Ideal ⟨2, ![1, 8192]⟩ .f32) (r : Fin 8192) (o : Fin 8192) :
    tile A B cs bs (ix2 r o) = tileAt A B cs bs r o := rfl

/-- One entry of the layer: position (n, s), channel `o`. -/
def layerAt (Q : FVec Ideal ⟨3, ![4, 2048, 2048]⟩ .f32) (sx : FVec Ideal ⟨0, ![]⟩ .f32)
    (W : FVec Ideal ⟨2, ![8192, 2048]⟩ .f32) (ws b : FVec Ideal ⟨1, ![8192]⟩ .f32)
    (n : Fin 4) (s : Fin 2048) (o : Fin 8192) : EReal :=
  (∑ k : Fin 2048, Q (ix3 n s k) * W (ix2 o k)) * (sx ix0 * ws (ix1 o)) + b (ix1 o)

/-- The layer's [4, 2048, 8192] output as one function of the quantised activations, the scale and the parameters. -/
def layer (Q : FVec Ideal ⟨3, ![4, 2048, 2048]⟩ .f32) (sx : FVec Ideal ⟨0, ![]⟩ .f32)
    (W : FVec Ideal ⟨2, ![8192, 2048]⟩ .f32) (ws b : FVec Ideal ⟨1, ![8192]⟩ .f32) :
    FVec Ideal ⟨3, ![4, 2048, 8192]⟩ .f32 :=
  fun i => layerAt Q sx W ws b ⟨(i 0).val, (i 0).isLt⟩ ⟨(i 1).val, (i 1).isLt⟩ ⟨(i 2).val, (i 2).isLt⟩

theorem layer_apply (Q : FVec Ideal ⟨3, ![4, 2048, 2048]⟩ .f32) (sx : FVec Ideal ⟨0, ![]⟩ .f32)
    (W : FVec Ideal ⟨2, ![8192, 2048]⟩ .f32) (ws b : FVec Ideal ⟨1, ![8192]⟩ .f32)
    (n : Fin 4) (s : Fin 2048) (o : Fin 8192) :
    layer Q sx W ws b (ix3 n s o) = layerAt Q sx W ws b n s o := rfl

end Cert.QuantLinear

end
-- ==== Proof.Blocks.lean ====
/-
  From the 64 output blocks to the whole flat array.

  What the body stores at entry (p, q) of its output block at point (i, j) is
  ( Σ_k x0(p, k) · x1(k, q) ) · x2(0, q) + x3(0, q)  over its four input blocks; read through the blocks' positions that
  is `tile` of the four whole arrays at entry (512·i + p, 2048·j + q): the contraction runs over the whole shared axis
  inside one point, so no block depends on another. This is a fact about ANY four arrays (`block_of_tile`); at the arrays
  the region finds, it says that what point (i, j) writes back is its block of `tile`. The blocks cover the array, so
  after the last write-back the array IS `tile` of the four arrays the region found.
-/
import proofs.«181942_j77859167142257_1_alg».proof.Proof.BlockIdx
import proofs.«181942_j77859167142257_1_alg».proof.Proof.Payload
import proofs.«181942_j77859167142257_1_alg».proof.Proof.Spec

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.QuantLinear
open Idealize.ShloMosaic.Pipeline (Dat)

variable (m : (ℓ : Loc nD τ sig) → Buf (Elt Ideal) ℓ)

/-- Point `t`'s blocks of four arbitrary arrays of the region's shapes, at their literal types. -/
abbrev blkA (A : FVec Ideal S8192x2048 .bf16) (t : Fin cfg0.N) : FVec Ideal S512x2048 .bf16 :=
  ((cfg0.win 0).blk t).view.read (Elt Ideal) A
abbrev blkB (B : FVec Ideal S2048x8192 .bf16) (t : Fin cfg0.N) : FVec Ideal S2048x2048 .bf16 :=
  ((cfg0.win 1).blk t).view.read (Elt Ideal) B
abbrev blkC (C : FVec Ideal S1x8192 .f32) (t : Fin cfg0.N) : FVec Ideal S1x2048 .f32 :=
  ((cfg0.win 2).blk t).view.read (Elt Ideal) C
abbrev blkD (D : FVec Ideal S1x8192 .f32) (t : Fin cfg0.N) : FVec Ideal S1x2048 .f32 :=
  ((cfg0.win 3).blk t).view.read (Elt Ideal) D

/-- The stored value at entry (p, q) of point `t`'s block is `tile` at the entry of the array it sits at. -/
theorem stored_eq (A : FVec Ideal S8192x2048 .bf16) (B : FVec Ideal S2048x8192 .bf16) (C D : FVec Ideal S1x8192 .f32)
    (t : Fin cfg0.N) (p : Fin 512) (q : Fin 2048) (r o : Fin 8192)
    (hr : r.val = win0_4.index t (0 : Fin 2) * 512 + p.val) (ho : o.val = win0_4.index t (1 : Fin 2) * 2048 + q.val) :
    k0_pay1 (F := Ideal) (blkA A t) (blkB B t) (blkC C t) (blkD D t) (ix2 p q) = tileAt A B C D r o := by
  refine (Payload.pay_apply (blkA A t) (blkB B t) (blkC C t) (blkD D t) p q).trans ?_
  unfold tileAt
  rw [show blkC C t (ix2 (0 : Fin 1) q) = C (ix2 (0 : Fin 1) o) from scale_read C t q o ho,
    show blkD D t (ix2 (0 : Fin 1) q) = D (ix2 (0 : Fin 1) o) from bias_read D t q o ho]
  refine congrArg (fun z => z * C (ix2 (0 : Fin 1) o) + D (ix2 (0 : Fin 1) o)) ?_
  refine Finset.sum_congr rfl fun k _ => ?_
  rw [show blkA A t (ix2 p k) = A (ix2 r k) from act_read A t p k r hr,
    show blkB B t (ix2 k q) = B (ix2 k o) from w_read B t k q o ho]

/-- For any four arrays: the body's store over their blocks at point `t`, cut to the output window's block, is block
    `t` of `tile` of the arrays. -/
theorem block_of_tile (A : FVec Ideal S8192x2048 .bf16) (B : FVec Ideal S2048x8192 .bf16) (C D : FVec Ideal S1x8192 .f32)
    (t : Fin cfg0.N) :
    (cfg0.win 4).cut (grid0.coords t) (k0_pay1 (F := Ideal) (blkA A t) (blkB B t) (blkC C t) (blkD D t))
      = ((cfg0.win 4).blk t).view.read (Elt Ideal) (tile A B C D) := by
  obtain ⟨-, -, -, -, -, -, -, -, b0, b1⟩ := block_indices t
  funext j
  obtain ⟨p, q, rfl⟩ : ∃ (p : Fin 512) (q : Fin 2048), j = ix2 p q := ⟨j 0, j 1, eq_ix2 j⟩
  -- the row and the column of the array this entry of the block sits at
  have hp : p.val < 512 := p.isLt
  have hq : q.val < 2048 := q.isLt
  have ht : t.val < 64 := point_lt t
  have hr : win0_4.index t (0 : Fin 2) * 512 + p.val < 8192 := by omega
  have ho : win0_4.index t (1 : Fin 2) * 2048 + q.val < 8192 := by omega
  have hemb : ((cfg0.win 4).blk t).view.emb (ix2 p q)
      = ix2 (⟨win0_4.index t (0 : Fin 2) * 512 + p.val, hr⟩ : Fin 8192) (⟨win0_4.index t (1 : Fin 2) * 2048 + q.val, ho⟩ : Fin 8192) := by
    funext a; apply Fin.ext
    match a with
    | ⟨0, _⟩ => show win0_4.index t (0 : Fin 2) * 512 + 1 * p.val = win0_4.index t (0 : Fin 2) * 512 + p.val; omega
    | ⟨1, _⟩ => show win0_4.index t (1 : Fin 2) * 2048 + 1 * q.val = win0_4.index t (1 : Fin 2) * 2048 + q.val; omega
  show k0_pay1 (F := Ideal) (blkA A t) (blkB B t) (blkC C t) (blkD D t) (ix2 p q)
    = tile A B C D (((cfg0.win 4).blk t).view.emb (ix2 p q))
  rw [hemb, tile_apply]
  exact stored_eq A B C D t p q _ _ rfl rfl

/-- What point `t` writes back is block `t` of `tile` of the four arrays the region finds. -/
theorem flushed_eq (c : Dev nD) (t : Fin cfg0.N) :
    (dats m 0 c).flushed 4 t
      = ((cfg0.win 4).blk t).view.read (Elt Ideal) (tile (actRows m c) (wCols m c) (scaleRow m c) (biasRow m c)) := by
  show (cfg0.win 4).cut (grid0.coords t) ((dats m 0 c).after 4 t) = _
  rw [after0_4]
  unfold out0_4
  rw [View.canon_unit_zero zero_offsets]
  simp only [View.ld_unit_zero (S := S512x2048) zero_offsets, View.ld_unit_zero (S := S2048x2048) zero_offsets,
    View.ld_unit_zero (S := S1x2048) zero_offsets]
  unfold iblk
  exact block_of_tile (actRows m c) (wCols m c) (scaleRow m c) (biasRow m c) t

/-- The flat output after the region: `tile` of the four arrays the region found. -/
theorem final (c : Dev nD) :
    (dats m 0 c).arrAt 4 cfg0.N = tile (actRows m c) (wCols m c) (scaleRow m c) (biasRow m c) :=
  (dats m 0 c).arrAt_eq_of_cover 4 _ (fun t _ => flushed_eq m c t) covered

end Cert.KernelIdeal.Blocks

end
-- ==== Proof.HostPre.lean ====
/-
  What the region finds in the four arrays it reads, as functions of the program's arguments.

  Before the region the host program takes the largest magnitude of the activations, compares it with zero and divides it
  by 127 (its first stretch of operations); selects the activation scale; quantises the activations at that scale;
  narrows them to bf16 (the identity on the extended reals) and flattens them to [8192, 2048]; narrows the weights and
  transposes them to [2048, 8192]; multiplies the scale, laid out over the 8192 channels, by the weight scales and views
  the product as a [1, 8192] row; and views the bias as a [1, 8192] row.

  The operations after the first stretch are read over an ARBITRARY state of the buffers after it: what they compute
  does not depend on how the magnitude was obtained, only on the four buffers the first stretch leaves (the compare
  bit, the constant one, the quotient, and the untouched arguments). The first stretch is read separately. Joined:

      activations (r, k)  =  q(r / 2048, r % 2048, k)          weights (k, o)  =  W(o, k)
      scale row   (0, o)  =  sx · ws(o)                        bias row (0, o)  =  b(o)

  with  sx = QuantLinear.scale x  and  q = QuantLinear.quantise x .
-/
import proofs.«181942_j77859167142257_1_alg».proof.Proof.BlockIdx
import proofs.«181942_j77859167142257_1_alg».proof.Proof.Spec
import Idealize.ShloMosaic.Lib.StableHlo.Run
import Idealize.ShloMosaic.Lib.Pipeline.Value
import Idealize.ShloMosaic.Lib.ValueIdx
import Idealize.ShloMosaic.PureOps.Ideal

noncomputable section

namespace Cert.KernelIdeal.HostPre

open Cert.KernelIdeal Cert.KernelIdeal.Gen Idealize.ShloMosaic Idealize.ShloMosaic.TcCoe Idealize.SL.Sem
open Idealize.ShloMosaic.StableHlo Idealize.ShloMosaic.ValueIdx Cert.QuantLinear Cert.KernelIdeal.Blocks

variable (m : (ℓ : Loc nD τ sig) → Buf (Elt Ideal) ℓ)

/-- The program's four arguments on core `c`, at their literal types. -/
abbrev argX (c : Dev nD) : FVec Ideal S4x2048x2048 .f32 := m (c, Proc.devRef .tc main_arg0)
abbrev argW (c : Dev nD) : FVec Ideal S8192x2048 .f32 := m (c, Proc.devRef .tc main_arg1)
abbrev argWs (c : Dev nD) : FVec Ideal S8192 .f32 := m (c, Proc.devRef .tc main_arg2)
abbrev argB (c : Dev nD) : FVec Ideal S8192 .f32 := m (c, Proc.devRef .tc main_arg3)

/-- The largest magnitude, the activation scale and the quantised activations of this program's input. -/
abbrev amax (c : Dev nD) : FVec Ideal S_ .f32 := absMax reducesTo_S4x2048x2048_S_d0_1_2 h_S_ (argX m c)
abbrev sx (c : Dev nD) : FVec Ideal S_ .f32 := scale reducesTo_S4x2048x2048_S_d0_1_2 h_S_ (argX m c)
abbrev qx (c : Dev nD) : FVec Ideal S4x2048x2048 .f32 :=
  quantise reducesTo_S4x2048x2048_S_d0_1_2 h_S_ bcast_S_S4x2048x2048 (argX m c)

/-! ## The first stretch: the magnitude, its comparison with zero, its quotient by 127, the constant one -/

/-- The buffers after the first stretch of host operations. -/
def first (c : Dev nD) : Valuation τ sig (Elt Ideal) := StableHlo.after hostOps0 (fun b => m (c, b))

theorem first_v2 (c : Dev nD) :
    (first m c (Proc.devRef .tc main_v2) : IVec S_ 1)
      = cmpf (F := Ideal) .oeq (amax m c) (constant (F := Ideal) S_ .f32 0x00000000#32) := by
  unfold first
  simp only [hostOps0]
  after_results
  rfl

theorem first_cst_2 (c : Dev nD) :
    (first m c (Proc.devRef .tc main_cst_2) : FVec Ideal S_ .f32) = constant (F := Ideal) S_ .f32 0x3F800000#32 := by
  unfold first
  simp only [hostOps0]
  after_results

theorem first_v3 (c : Dev nD) :
    (first m c (Proc.devRef .tc main_v3) : FVec Ideal S_ .f32)
      = Host.divf (F := Ideal) (amax m c) (constant (F := Ideal) S_ .f32 0x42FE0000#32) := by
  unfold first
  simp only [hostOps0]
  after_results
  rfl

theorem first_arg0 (c : Dev nD) : (first m c (Proc.devRef .tc main_arg0) : FVec Ideal S4x2048x2048 .f32) = argX m c := by
  unfold first
  simp only [hostOps0]
  after_results

theorem first_arg1 (c : Dev nD) : (first m c (Proc.devRef .tc main_arg1) : FVec Ideal S8192x2048 .f32) = argW m c := by
  unfold first
  simp only [hostOps0]
  after_results

theorem first_arg2 (c : Dev nD) : (first m c (Proc.devRef .tc main_arg2) : FVec Ideal S8192 .f32) = argWs m c := by
  unfold first
  simp only [hostOps0]
  after_results

theorem first_arg3 (c : Dev nD) : (first m c (Proc.devRef .tc main_arg3) : FVec Ideal S8192 .f32) = argB m c := by
  unfold first
  simp only [hostOps0]
  after_results

/-! ## The later stretches, over any state of the buffers after the first -/

/-- The host operations between the first stretch and the region. -/
abbrev later : List (HloOp τ sig (Elt Ideal)) :=
  hostOps0_1 ++ (hostOps0_2 ++ (hostOps0_3 ++ (hostOps0_4 ++ (hostOps0_5 ++ hostOps0_6))))

/-- The scale the later stretches select from the first stretch's three buffers. -/
abbrev selOf (F : Valuation τ sig (Elt Ideal)) : FVec Ideal S_ .f32 :=
  select (F (Proc.devRef .tc main_v2) : IVec S_ 1) (F (Proc.devRef .tc main_cst_2) : FVec Ideal S_ .f32)
    (F (Proc.devRef .tc main_v3) : FVec Ideal S_ .f32)

set_option maxHeartbeats 2000000 in
theorem later_v10 (F : Valuation τ sig (Elt Ideal)) :
    (StableHlo.after later F (Proc.devRef .tc main_v10) : FVec Ideal S8192x2048 .bf16)
      = shapeCast S8192x2048
          (truncf .bf16 (quantiseWith bcast_S_S4x2048x2048 (F (Proc.devRef .tc main_arg0) : FVec Ideal S4x2048x2048 .f32) (selOf F))
            bitsLt_bf16_f32) shapeCasts_S4x2048x2048_S8192x2048 := by
  simp only [later, hostOps0_1, hostOps0_2, hostOps0_3, hostOps0_4, hostOps0_5, hostOps0_6, List.cons_append, List.nil_append]
  after_results
  rfl

set_option maxHeartbeats 2000000 in
theorem later_v12 (F : Valuation τ sig (Elt Ideal)) :
    (StableHlo.after later F (Proc.devRef .tc main_v12) : FVec Ideal S2048x8192 .bf16)
      = transpose S2048x8192 [1, 0] (truncf (F := Ideal) .bf16 (F (Proc.devRef .tc main_arg1) : FVec Ideal S8192x2048 .f32) bitsLt_bf16_f32)
          transposes_S8192x2048_S2048x8192_1_0 := by
  simp only [later, hostOps0_1, hostOps0_2, hostOps0_3, hostOps0_4, hostOps0_5, hostOps0_6, List.cons_append, List.nil_append]
  after_results

set_option maxHeartbeats 2000000 in
theorem later_v15 (F : Valuation τ sig (Elt Ideal)) :
    (StableHlo.after later F (Proc.devRef .tc main_v15) : FVec Ideal S1x8192 .f32)
      = shapeCast S1x8192 (mulf (broadcastInDim S8192 ![] bcast_S_S8192 (selOf F))
          (F (Proc.devRef .tc main_arg2) : FVec Ideal S8192 .f32)) shapeCasts_S8192_S1x8192 := by
  simp only [later, hostOps0_1, hostOps0_2, hostOps0_3, hostOps0_4, hostOps0_5, hostOps0_6, List.cons_append, List.nil_append]
  after_results
  rfl

set_option maxHeartbeats 2000000 in
theorem later_v16 (F : Valuation τ sig (Elt Ideal)) :
    (StableHlo.after later F (Proc.devRef .tc main_v16) : FVec Ideal S1x8192 .f32)
      = shapeCast S1x8192 (F (Proc.devRef .tc main_arg3) : FVec Ideal S8192 .f32) shapeCasts_S8192_S1x8192 := by
  simp only [later, hostOps0_1, hostOps0_2, hostOps0_3, hostOps0_4, hostOps0_5, hostOps0_6, List.cons_append, List.nil_append]
  after_results
  rfl

end Cert.KernelIdeal.HostPre

end
-- ==== Proof.Arrays.lean ====
/-
  The four arrays the region reads, at one entry each, as functions of the program's arguments.

  The host operations before the region are the first stretch followed by the later stretches, so each array is what the
  later stretches compute (HostPre's `later_*`) from what the first stretch leaves (HostPre's `first_*`). With
  sx = QuantLinear.scale x  the activation scale and  q = QuantLinear.quantise x  the quantised activations:

      activations (r, k)  =  q(n, s, k)  for  r = n · 2048 + s          weights (k, o)  =  W(o, k)
      scale row   (0, o)  =  sx · ws(o)                                  bias row (0, o)  =  b(o)
-/
import proofs.«181942_j77859167142257_1_alg».proof.Proof.HostPre

noncomputable section

namespace Cert.KernelIdeal.Arrays

open Cert.KernelIdeal Cert.KernelIdeal.Gen Idealize.ShloMosaic Idealize.ShloMosaic.TcCoe Idealize.SL.Sem
open Idealize.ShloMosaic.StableHlo Idealize.ShloMosaic.ValueIdx Cert.QuantLinear Cert.KernelIdeal.Blocks
open Cert.KernelIdeal.HostPre

variable (m : (ℓ : Loc nD τ sig) → Buf (Elt Ideal) ℓ)

/-- The buffers when the region is entered: the later stretches run on what the first stretch leaves. -/
theorem entry_eq (c : Dev nD) : V0 m c = StableHlo.after later (first m c) := by
  show StableHlo.after (List.flatten [hostOps0, hostOps0_1, hostOps0_2, hostOps0_3, hostOps0_4, hostOps0_5, hostOps0_6])
    (fun b => m (c, b)) = _
  rw [List.flatten_cons, List.flatten_cons, List.flatten_cons, List.flatten_cons, List.flatten_cons, List.flatten_cons,
    List.flatten_cons, List.flatten_nil, List.append_nil]
  exact StableHlo.after_append hostOps0 later _

/-- Windows 0 to 3 of the region stage the buffers of the flattened activations, the transposed weights, the scale
    row and the bias row. -/
theorem arr0 : Pipeline.arrRef spec0 (0 : Fin cfg0.W) = main_v10 := rfl
theorem arr1 : Pipeline.arrRef spec0 (1 : Fin cfg0.W) = main_v12 := rfl
theorem arr2 : Pipeline.arrRef spec0 (2 : Fin cfg0.W) = main_v15 := rfl
theorem arr3 : Pipeline.arrRef spec0 (3 : Fin cfg0.W) = main_v16 := rfl

/-- The quantisation chain of the specification, unfolded one step at a time. -/
theorem quantise_step (hr : XS.ReducesTo [0, 1, 2] S0) (h0 : 0 < S0.numel)
    (hb : S0.BroadcastsInDim XS (![] : Fin 0 → Fin XS.rank)) (x : FVec Ideal XS .f32) :
    quantise hr h0 hb x = quantiseWith hb x (scaleOf (absMax hr h0 x)) := rfl
theorem scale_step (hr : XS.ReducesTo [0, 1, 2] S0) (h0 : 0 < S0.numel) (x : FVec Ideal XS .f32) :
    scale hr h0 x = scaleOf (absMax hr h0 x) := rfl

/-- What the later stretches select as the scale, from the first stretch's buffers, is the activation scale. -/
theorem sel_eq (c : Dev nD) : selOf (first m c) = sx m c := by
  show select (first m c (Proc.devRef .tc main_v2) : IVec S_ 1) (first m c (Proc.devRef .tc main_cst_2) : FVec Ideal S_ .f32)
    (first m c (Proc.devRef .tc main_v3) : FVec Ideal S_ .f32) = scale reducesTo_S4x2048x2048_S_d0_1_2 h_S_ (argX m c)
  rw [first_v2, first_cst_2, first_v3, scale_step]
  rfl

/-! ## The arrays as terms of the arguments -/

theorem acts_eq (c : Dev nD) :
    actRows m c = shapeCast S8192x2048 (truncf .bf16 (qx m c) bitsLt_bf16_f32) shapeCasts_S4x2048x2048_S8192x2048 := by
  have hb : actRows m c = (V m c main_v10 : FVec Ideal S8192x2048 .bf16) := by
    apply eq_of_heq
    show HEq (V m c (Pipeline.arrRef spec0 (0 : Fin cfg0.W))) (V m c main_v10)
    rw [arr0]
  rw [hb]
  dsimp only [V]
  rw [entry_eq]
  refine (later_v10 (first m c)).trans ?_
  rw [sel_eq, first_arg0]
  rfl

theorem weights_eq (c : Dev nD) :
    wCols m c = transpose S2048x8192 [1, 0] (truncf .bf16 (argW m c) bitsLt_bf16_f32) transposes_S8192x2048_S2048x8192_1_0 := by
  have hb : wCols m c = (V m c main_v12 : FVec Ideal S2048x8192 .bf16) := by
    apply eq_of_heq
    show HEq (V m c (Pipeline.arrRef spec0 (1 : Fin cfg0.W))) (V m c main_v12)
    rw [arr1]
  rw [hb]
  dsimp only [V]
  rw [entry_eq]
  refine (later_v12 (first m c)).trans ?_
  rw [first_arg1]

theorem scales_eq (c : Dev nD) :
    scaleRow m c = shapeCast S1x8192 (mulf (broadcastInDim S8192 ![] bcast_S_S8192 (sx m c)) (argWs m c)) shapeCasts_S8192_S1x8192 := by
  have hb : scaleRow m c = (V m c main_v15 : FVec Ideal S1x8192 .f32) := by
    apply eq_of_heq
    show HEq (V m c (Pipeline.arrRef spec0 (2 : Fin cfg0.W))) (V m c main_v15)
    rw [arr2]
  rw [hb]
  dsimp only [V]
  rw [entry_eq]
  refine (later_v15 (first m c)).trans ?_
  rw [sel_eq, first_arg2]

theorem bias_eq (c : Dev nD) :
    biasRow m c = shapeCast S1x8192 (argB m c) shapeCasts_S8192_S1x8192 := by
  have hb : biasRow m c = (V m c main_v16 : FVec Ideal S1x8192 .f32) := by
    apply eq_of_heq
    show HEq (V m c (Pipeline.arrRef spec0 (3 : Fin cfg0.W))) (V m c main_v16)
    rw [arr3]
  rw [hb]
  dsimp only [V]
  rw [entry_eq]
  refine (later_v16 (first m c)).trans ?_
  rw [first_arg3]

/-! ## The arrays at one entry -/

/-- Row `r = n · 2048 + s` of the flattened activations is position (n, s). -/
theorem acts_apply (c : Dev nD) (n : Fin 4) (s : Fin 2048) (k : Fin 2048) (r : Fin 8192) (hr : r.val = n.val * 2048 + s.val) :
    actRows m c (ix2 r k) = qx m c (ix3 n s k) := by
  rw [acts_eq]
  refine (shapeCast_apply _ shapeCasts_S4x2048x2048_S8192x2048 (ix2 r k) (ix3 n s k) ?_).trans rfl
  rw [Shape.rowMajor_val_three, Shape.rowMajor_val_two]
  show (n.val * 2048 + s.val) * 2048 + k.val = r.val * 2048 + k.val
  rw [hr]

/-- Entry (k, o) of the transposed weights is entry (o, k) of the weights. -/
theorem weights_apply (c : Dev nD) (k : Fin 2048) (o : Fin 8192) :
    wCols m c (ix2 k o) = argW m c (ix2 o k) := by
  rw [weights_eq]
  refine (transpose_apply [1, 0] _ transposes_S8192x2048_S2048x8192_1_0 (ix2 k o) (ix2 o k) fun b => ?_).trans rfl
  match b with
  | ⟨0, _⟩ => rfl
  | ⟨1, _⟩ => rfl

/-- Entry (0, o) of the combined scale row is the activation scale times the weight scale of channel `o`. -/
theorem scales_apply (c : Dev nD) (o : Fin 8192) :
    scaleRow m c (ix2 (0 : Fin 1) o) = sx m c ix0 * argWs m c (ix1 o) := by
  rw [scales_eq]
  refine (shapeCast_apply _ shapeCasts_S8192_S1x8192 (ix2 (0 : Fin 1) o) (ix1 o) ?_).trans ?_
  · rw [Shape.rowMajor_val_one, Shape.rowMajor_val_two]
    show o.val = 0 * 8192 + o.val
    omega
  · rw [mulf_apply]
    exact congrArg (· * argWs m c (ix1 o))
      (broadcastInDim_apply ![] bcast_S_S8192 (sx m c) (ix1 o) ix0 fun a => a.elim0)

/-- Entry (0, o) of the bias row is the bias of channel `o`. -/
theorem bias_apply (c : Dev nD) (o : Fin 8192) :
    biasRow m c (ix2 (0 : Fin 1) o) = argB m c (ix1 o) := by
  rw [bias_eq]
  refine shapeCast_apply _ shapeCasts_S8192_S1x8192 (ix2 (0 : Fin 1) o) (ix1 o) ?_
  rw [Shape.rowMajor_val_one, Shape.rowMajor_val_two]
  show o.val = 0 * 8192 + o.val
  omega

end Cert.KernelIdeal.Arrays

end
-- ==== Proof.KernelRun.lean ====
/-
  The kernel program's result is the layer.

  After the region the flat [8192, 8192] array holds `tile` of the four arrays the region read (Blocks), and those arrays
  are the quantised activations flattened, the weights transposed, the scale row and the bias row (Arrays). So entry
  (n · 2048 + s, o) of the flat array is

      ( Σ_k q(n, s, k) · W(o, k) ) · ( sx · ws(o) ) + b(o) ,

  the layer's entry (n, s, o). The one host operation after the region views the flat array as [4, 2048, 8192]: entry
  (n, s, o) of the view is entry (n · 2048 + s, o) of the flat array. Hence the program's result is `layer`.
-/
import proofs.«181942_j77859167142257_1_alg».proof.Proof.Blocks
import proofs.«181942_j77859167142257_1_alg».proof.Proof.Arrays

noncomputable section

open scoped BigOperators

namespace Cert.KernelIdeal.Run

open Cert.KernelIdeal Cert.KernelIdeal.Gen Idealize.ShloMosaic Idealize.ShloMosaic.TcCoe Idealize.SL.Sem
open Idealize.ShloMosaic.StableHlo Idealize.ShloMosaic.ValueIdx Cert.QuantLinear Cert.KernelIdeal.Blocks
open Cert.KernelIdeal.HostPre
open Idealize.ShloMosaic.Pipeline (Dat)

variable (m : (ℓ : Loc nD τ sig) → Buf (Elt Ideal) ℓ) (ρ : Dev nD → PrngReg)

/-- Entry (n · 2048 + s, o) of the flat product is the layer's entry (n, s, o). -/
theorem tile_is_layer (c : Dev nD) (n : Fin 4) (s : Fin 2048) (o : Fin 8192) (r : Fin 8192)
    (hr : r.val = n.val * 2048 + s.val) :
    tile (actRows m c) (wCols m c) (scaleRow m c) (biasRow m c) (ix2 r o)
      = layerAt (qx m c) (sx m c) (argW m c) (argWs m c) (argB m c) n s o := by
  rw [tile_apply]
  unfold tileAt layerAt
  rw [Arrays.scales_apply, Arrays.bias_apply]
  refine congrArg (fun z => z * (sx m c ix0 * argWs m c (ix1 o)) + argB m c (ix1 o)) ?_
  exact Finset.sum_congr rfl fun k _ => by rw [Arrays.acts_apply m c n s k r hr, Arrays.weights_apply]

/-- The host operation after the region, over any state of the buffers: the result is the flat array viewed as
    [4, 2048, 8192]. -/
theorem tail_core (Wv : Valuation τ sig (Elt Ideal)) :
    (StableHlo.after hostOps1 Wv (Proc.devRef .tc main_v18) : FVec Ideal S4x2048x8192 .f32)
      = shapeCast S4x2048x8192 (Wv (Proc.devRef .tc main_v17) : FVec Ideal S8192x8192 .f32)
          shapeCasts_S8192x8192_S4x2048x8192 := by
  simp only [hostOps1]
  after_results
  rfl

/-- The flat array as the region leaves it, among the buffers the later operation reads. -/
theorem flat_after (c : Dev nD) :
    (Pipeline.withArrays spec0 c (V0 m c) (fun w => (dats m 0 c).arrAt w cfg0.N) (Proc.devRef .tc main_v17)
        : FVec Ideal S8192x8192 .f32)
      = tile (actRows m c) (wCols m c) (scaleRow m c) (biasRow m c) :=
  (Pipeline.withArrays_arr spec0 launch0.win.arr_inj c (V0 m c) (fun w => (dats m 0 c).arrAt w cfg0.N) 4).trans
    (Blocks.final m c)

/-- The program's result buffer after the run. -/
theorem result_eq (c : Dev nD) :
    (Pipeline.afterTail₀ cfgs (dats m) 0 (V0 m) [hostOps1] c main_v18 : FVec Ideal S4x2048x8192 .f32)
      = layer (qx m c) (sx m c) (argW m c) (argWs m c) (argB m c) := by
  unfold Pipeline.afterTail₀
  show StableHlo.after hostOps1 (Pipeline.withArrays spec0 c (V0 m c) fun w => (dats m 0 c).arrAt w cfg0.N)
    (Proc.devRef .tc main_v18) = _
  rw [tail_core, flat_after]
  funext i
  obtain ⟨n, s, o, rfl⟩ : ∃ (n : Fin 4) (s : Fin 2048) (o : Fin 8192), i = ix3 n s o := ⟨i 0, i 1, i 2, eq_ix3 i⟩
  rw [layer_apply]
  have hn : n.val < 4 := n.isLt
  have hs : s.val < 2048 := s.isLt
  have hlt : n.val * 2048 + s.val < 8192 := by omega
  refine (shapeCast_apply _ shapeCasts_S8192x8192_S4x2048x8192 (ix3 n s o)
    (ix2 (⟨n.val * 2048 + s.val, hlt⟩ : Fin 8192) o) ?_).trans ?_
  · rw [Shape.rowMajor_val_two, Shape.rowMajor_val_three]
    rfl
  · exact tile_is_layer m c n s o _ rfl

/-- Every weakly fair execution of the kernel program terminates with its result buffer at the layer of its
    arguments, and the arguments unchanged. -/
theorem run : θ_run defs (onTc (τ := τ) (main (F := Ideal))) ⟨m, fun _ => 0, ρ⟩ fun r => ∀ c : Dev nD,
      r.2.mem ((c.tc : Thread nD τ).loc main_v18) = layer (qx m c) (sx m c) (argW m c) (argWs m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v18 (Pipeline.mem_restRefs_of main_v18 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Run

end
-- ==== Proof.RefValue.lean ====
/-
  The reference's result is the layer.

  The reference contracts the quantised activations [4, 2048, 2048] with the weights [8192, 2048] over their last axes,
  multiplies by the activation scale times the weight scales laid out along the channel axis, and adds the bias laid
  out the same way. Reading each stage at the entry (n, s, o):

      ( Σ_k q(n, s, k) · W(o, k) ) · ( sx · ws(o) ) + b(o) ,

  which is `QuantLinear.layer` of the reference's own quantised activations and scale.
-/
import proofs.«181942_j77859167142257_1_alg».proof.Proof.Gen.ReferenceIdeal.Read
import proofs.«181942_j77859167142257_1_alg».proof.Proof.Spec
import Idealize.ShloMosaic.Lib.ValueIdx

noncomputable section

open scoped BigOperators

namespace Cert.ReferenceIdeal.RefValue

open Cert.ReferenceIdeal Cert.ReferenceIdeal.Gen Cert.ReferenceIdeal.Read Idealize.ShloMosaic
open Idealize.ShloMosaic.ValueIdx Cert.QuantLinear

/-- The reference's last stage, as a function of its four arguments, is the layer of its quantised activations
    (`val_main_v8`) and its activation scale (`val_main_v4`). -/
theorem result_is_layer (x0 : (⟨S4x2048x2048, .f32⟩ : BufTy).Contents (Elt Ideal))
    (x1 : (⟨S8192x2048, .f32⟩ : BufTy).Contents (Elt Ideal)) (x2 x3 : (⟨S8192, .f32⟩ : BufTy).Contents (Elt Ideal)) :
    val_main_v17 (F := Ideal) x0 x1 x2 x3
      = layer (val_main_v8 (F := Ideal) x0) (val_main_v4 (F := Ideal) x0) x1 x2 x3 := by
  funext i
  obtain ⟨n, s, o, rfl⟩ : ∃ (n : Fin 4) (s : Fin 2048) (o : Fin 8192), i = ix3 n s o := ⟨i 0, i 1, i 2, eq_ix3 i⟩
  rw [layer_apply]
  -- the stages, outermost first
  rw [val_main_v17_apply, val_main_v14_apply, val_main_v9_apply, val_main_v13_apply, val_main_v12_apply,
    val_main_v11_apply, val_main_v10_apply, val_main_v16_apply, val_main_v15_apply]
  -- where each stage reads its operand
  have el : ∀ k : Fin 2048, lidx_main_v9 (ix3 n s o) k = ix3 n s k := fun k => funext fun a => Fin.ext (by
    match a with
    | ⟨0, _⟩ => rfl
    | ⟨1, _⟩ => rfl
    | ⟨2, _⟩ => rfl)
  have er : ∀ k : Fin 2048, ridx_main_v9 (ix3 n s o) k = ix2 o k := fun k => funext fun a => Fin.ext (by
    match a with
    | ⟨0, _⟩ => rfl
    | ⟨1, _⟩ => rfl)
  have es : idx_main_v12 (idx_main_v13 (ix3 n s o)) = ix1 o := funext fun a => Fin.ext (by
    match a with
    | ⟨0, _⟩ => rfl)
  have eb : idx_main_v15 (idx_main_v16 (ix3 n s o)) = ix1 o := funext fun a => Fin.ext (by
    match a with
    | ⟨0, _⟩ => rfl)
  simp only [el, er, es, eb]
  rfl

end Cert.ReferenceIdeal.RefValue

end
-- ==== Proof.lean ====
/-
  A dequantised int8 linear layer on the matrix unit equals its plain array-program reference over the extended reals.

  Both programs quantise the activations x[4, 2048, 2048] dynamically: with  a = max |x| ,  sx = 1 if a = 0 else a / 127 ,
  and  q = clip(round(x / sx), -127, 127)  (ties to even). The reference contracts  q  with the weights  W[8192, 2048]
  over the last axes, multiplies by  sx · ws(o)  and adds the bias  b(o) . The kernel program flattens  q  to 8192 rows,
  transposes  W , forms the row  sx · ws , and runs a 16 × 4 grid in which each point multiplies a [512, 2048] block of
  rows by a [2048, 2048] block of columns on the matrix unit (into zeros), scales the product by its piece of the scale
  row and adds its piece of the bias row; the flat [8192, 8192] result is then viewed as [4, 2048, 8192]. At every entry
  (n, s, o) both are

      ( Σ_k q(n, s, k) · W(o, k) ) · ( sx · ws(o) ) + b(o)

  with the same grouping and order of the two products and the sum, so no law of arithmetic beyond reading each array
  at an index is used, and finiteness of the inputs is never needed: narrowing to bf16 is the identity on the extended
  reals, the matrix unit's product into a zero accumulator and the host's general product are the same sum over k, and
  the tiling does not split the contraction. The quantisation chain is the same text in both programs and is carried as
  two opaque functions of x (Proof/Spec.lean).

  Proof/Spec.lean states the layer; Proof/Payload.lean reads the kernel body's store at an entry; Proof/BlockIdx.lean and
  Proof/Blocks.lean go from the 64 blocks to the flat array; Proof/HostPre.lean and Proof/Arrays.lean read the host
  operations before the region; Proof/KernelRun.lean reads the one after it and states the kernel program's run;
  Proof/RefValue.lean reads the reference. The idealisation rewrote no operation, so `preserves` is trivial.
-/
import proofs.«181942_j77859167142257_1_alg».proof.Defs
import proofs.«181942_j77859167142257_1_alg».proof.Proof.Gen.Kernel
import proofs.«181942_j77859167142257_1_alg».proof.Proof.Gen.Kernel.Skeleton
import proofs.«181942_j77859167142257_1_alg».proof.Proof.Gen.Kernel.Launch
import proofs.«181942_j77859167142257_1_alg».proof.Proof.Gen.Kernel.Points
import proofs.«181942_j77859167142257_1_alg».proof.Proof.Gen.Kernel.Frame
import proofs.«181942_j77859167142257_1_alg».proof.Proof.Gen.KernelIdeal
import proofs.«181942_j77859167142257_1_alg».proof.Proof.Gen.KernelIdeal.Skeleton
import proofs.«181942_j77859167142257_1_alg».proof.Proof.Gen.KernelIdeal.Launch
import proofs.«181942_j77859167142257_1_alg».proof.Proof.Gen.KernelIdeal.Points
import proofs.«181942_j77859167142257_1_alg».proof.Proof.Gen.KernelIdeal.Frame
import proofs.«181942_j77859167142257_1_alg».proof.Proof.Gen.ReferenceIdeal
import proofs.«181942_j77859167142257_1_alg».proof.Proof.Gen.Pre_finite_inputs
import proofs.«181942_j77859167142257_1_alg».proof.Proof.Gen.ReferenceIdeal.Run
import proofs.«181942_j77859167142257_1_alg».proof.Proof.Gen.ReferenceIdeal.Read
import proofs.«181942_j77859167142257_1_alg».proof.Proof.KernelRun
import proofs.«181942_j77859167142257_1_alg».proof.Proof.RefValue
import Idealize.ShloMosaic.Adequacy
import Idealize.ShloMosaic.Init

noncomputable section

namespace Cert.Proof

open Idealize.ShloMosaic Idealize.ShloMosaic.TcCoe Idealize.SL.Sem Cert.QuantLinear

/-- The reference's activation scale is the specification's: the same operations on the same literals. -/
theorem ref_scale (x : (⟨Cert.ReferenceIdeal.S4x2048x2048, .f32⟩ : BufTy).Contents (Elt Ideal)) :
    Cert.ReferenceIdeal.Read.val_main_v4 (F := Ideal) x
      = scale Cert.KernelIdeal.Facts₀.reducesTo_S4x2048x2048_S_d0_1_2 Cert.KernelIdeal.Facts₀.h_S_ x := rfl

/-- The reference's quantised activations are the specification's. -/
theorem ref_quant (x : (⟨Cert.ReferenceIdeal.S4x2048x2048, .f32⟩ : BufTy).Contents (Elt Ideal)) :
    Cert.ReferenceIdeal.Read.val_main_v8 (F := Ideal) x
      = quantise Cert.KernelIdeal.Facts₀.reducesTo_S4x2048x2048_S_d0_1_2 Cert.KernelIdeal.Facts₀.h_S_
          Cert.KernelIdeal.Facts₀.bcast_S_S4x2048x2048 x := rfl

/-- From arguments that agree, both idealised programs end with their result at the layer of the kernel program's
    arguments: the kernel program by its run read at every entry, the reference by its generated run read stage by
    stage. -/
theorem algebraic : Cert.algebraic_KernelIdeal_ReferenceIdeal := by
  intro m ρ m' ρ' _ hagree
  refine ⟨fun c => layer (Cert.KernelIdeal.HostPre.qx m c) (Cert.KernelIdeal.HostPre.sx m c)
    (Cert.KernelIdeal.HostPre.argW m c) (Cert.KernelIdeal.HostPre.argWs m c) (Cert.KernelIdeal.HostPre.argB m c),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.result_is_layer,
    (hagree c).1, (hagree c).2.1, (hagree c).2.2.1, (hagree c).2.2.2, ref_quant, ref_scale]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2)
    (Cert.ReferenceIdeal.Value.run (F := Ideal) m ρ),
  trivial,
  algebraic⟩

end Cert.Proof

end
